-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S1600000x32 : Shape := ⟨2, ![1600000, 32]⟩
abbrev S16x2 : Shape := ⟨2, ![16, 2]⟩
abbrev S1600000 : Shape := ⟨1, ![1600000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S16x2 : S_.BroadcastsInDim S16x2 (![] : Fin 0 → Fin S16x2.rank)
  reducesTo_S16x2_S_d0_1 : S16x2.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S160x128 .f32) (main_arg6 : FVec F S128 .f32) (main_arg7 : FVec F S128x64 .f32) (main_arg8 : FVec F S64 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S160x128 .f32 := Host.absf main_arg5
  let main_cst_6 : FVec F S_ .f32 := constant S_ .f32 0x7F800000#32
  let main_v20 : FVec F S160x128 .f32 := broadcastInDim S160x128 ![] bcast_S_S160x128 main_cst_6
  let main_v21 : IVec S160x128 1 := cmpf .olt main_v19 main_v20
  let main_c_7 : IVec S_ 1 := constantI S_ 1 1#1
  let main_v22 : IVec S_ 1 := (fun x v => Host.reduce IntOp.andi x v reducesTo_S160x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S1600000x64 .f32) (main_arg1 : FVec F S1600000x64 .f32) (main_arg2 : FVec F S1600000x32 .f32) (main_arg3 : FVec F S16x2 .f32) (main_arg4 : IVec S1600000 32) (main_arg5 : FVec F S160x128 .f32) (main_arg6 : FVec F S128 .f32) (main_arg7 : FVec F S128x64 .f32) (main_arg8 : FVec F S64 .f32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_arg6 main_arg7 main_arg8 main_v13 main_v16
-- ==== Kernel.lean ====
abbrev S1600000x64 : Shape := ⟨2, ![1600000, 64]⟩
abbrev S1600000x32 : Shape := ⟨2, ![1600000, 32]⟩
abbrev S16x2 : Shape := ⟨2, ![16, 2]⟩
abbrev S1600000 : Shape := ⟨1, ![1600000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S5000x64 : Shape := ⟨2, ![5000, 64]⟩
abbrev S5000x32 : Shape := ⟨2, ![5000, 32]⟩
abbrev S5000x160 : Shape := ⟨2, ![5000, 160]⟩
abbrev S5000x128 : Shape := ⟨2, ![5000, 128]⟩

abbrev nBuf : Space → Nat
  | .hbm => 14
  | .vmem => 12
  | .smem => 0
  | _ => 0

abbrev bufTy : (tb : Table) → Fin (tcTables nBuf tb) → BufTy
  | .hbm, ⟨0, _⟩ => ⟨S1600000x64, .f32⟩
  | .hbm, ⟨1, _⟩ => ⟨S1600000x64, .f32⟩
  | .hbm, ⟨2, _⟩ => ⟨S1600000x32, .f32⟩
  | .hbm, ⟨3, _⟩ => ⟨S16x2, .f32⟩
  | .hbm, ⟨4, _⟩ => ⟨S1600000, .i32⟩
  | .hbm, ⟨5, _⟩ => ⟨S160x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S160x128, .bf16⟩
  | .hbm, ⟨10, _⟩ => ⟨S128x64, .bf16⟩
  | .hbm, ⟨11, _⟩ => ⟨S1x128, .f32⟩
  | .hbm, ⟨12, _⟩ => ⟨S1x64, .f32⟩
  | .hbm, ⟨13, _⟩ => ⟨S1600000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x32, .f32⟩
  | .local _ .vmem, ⟨5, _⟩ => ⟨S5000x32, .f32⟩
  | .local _ .vmem, ⟨6, _⟩ => ⟨S160x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S128_S1x128 : S128.ShapeCasts S1x128
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  concatenates_S5000x64_S5000x64_S5000x32_S5000x160_d1 : Shape.Concatenates [S5000x64, S5000x64, S5000x32] S5000x160 1
  inb_S160x128_S160x128_0_0 : ∀ a, (![0, 0] : Fin 2 → Nat) a + S160x128.size a ≤ S160x128.size a
  h_S160x128 : 0 < S160x128.numel
  shapeCasts_S160x128_S160x128 : S160x128.ShapeCasts S160x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x160_S160x128_S5000x128_1_0_0_1_n_n_wf : DotDims.WF S5000x160 S160x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1600000x64.size a
  hwx0_0 : ∀ i : grid0.Coords, EltTy.bits .f32 = 32 ∨ (Rect.block (s := S1600000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1600000x64.size a
  hwx0_1 : ∀ i : grid0.Coords, EltTy.bits .f32 = 32 ∨ (Rect.block (s := S1600000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S1600000x32.size a
  hwx0_2 : ∀ i : grid0.Coords, EltTy.bits .f32 = 32 ∨ (Rect.block (s := S1600000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x128.size a ≤ S160x128.size a
  hwx0_3 : ∀ i : grid0.Coords, EltTy.bits .bf16 = 32 ∨ (Rect.block (s := S160x128) S160x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S1600000x64.size a
  hwx0_7 : ∀ i : grid0.Coords, EltTy.bits .f32 = 32 ∨ (Rect.block (s := S1600000x64) S5000x64.size (cc0_transform_7 i) (hinb0_7 i)).WholeWords (EltTy.packing .f32)

variable [Facts₀]

def dot_S5000x160_S160x128_S5000x128_1_0_0_1_n_n : DotDims S5000x160 S160x128 S5000x128 where
  lhsContracting := [1]
  rhsContracting := [0]
  lhsNonContracting := [0]
  rhsNonContracting := [1]
  lhsBatch := []
  rhsBatch := []
  wf := dot_S5000x160_S160x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S160x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1600000x64 : Shape := ⟨2, ![1600000, 64]⟩
abbrev S1600000x32 : Shape := ⟨2, ![1600000, 32]⟩
abbrev S16x2 : Shape := ⟨2, ![16, 2]⟩
abbrev S1600000 : Shape := ⟨1, ![1600000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S1600000x160 : Shape := ⟨2, ![1600000, 160]⟩
abbrev S1600000x128 : Shape := ⟨2, ![1600000, 128]⟩
abbrev S1x128 : Shape := ⟨2, ![1, 128]⟩
abbrev S_ : Shape := ⟨0, ![]⟩
abbrev S1x64 : Shape := ⟨2, ![1, 64]⟩

abbrev nBuf : Space → Nat
  | .hbm => 21
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S1600000x64, .f32⟩
  | .hbm, ⟨2, _⟩ => ⟨S1600000x32, .f32⟩
  | .hbm, ⟨3, _⟩ => ⟨S16x2, .f32⟩
  | .hbm, ⟨4, _⟩ => ⟨S1600000, .i32⟩
  | .hbm, ⟨5, _⟩ => ⟨S160x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1600000x160, .f32⟩
  | .hbm, ⟨10, _⟩ => ⟨S1600000x128, .f32⟩
  | .hbm, ⟨11, _⟩ => ⟨S1x128, .f32⟩
  | .hbm, ⟨12, _⟩ => ⟨S1600000x128, .f32⟩
  | .hbm, ⟨13, _⟩ => ⟨S1600000x128, .f32⟩
  | .hbm, ⟨14, _⟩ => ⟨S_, .f32⟩
  | .hbm, ⟨15, _⟩ => ⟨S1600000x128, .f32⟩
  | .hbm, ⟨16, _⟩ => ⟨S1600000x128, .f32⟩
  | .hbm, ⟨17, _⟩ => ⟨S1600000x64, .f32⟩
  | .hbm, ⟨18, _⟩ => ⟨S1x64, .f32⟩
  | .hbm, ⟨19, _⟩ => ⟨S1600000x64, .f32⟩
  | .hbm, ⟨20, _⟩ => ⟨S1600000x64, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  concatenates_S1600000x64_S1600000x64_S1600000x32_S1600000x160_d1 : Shape.Concatenates [S1600000x64, S1600000x64, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  dot_S1600000x160_S160x128_S1600000x128_1_0_0_1_n_n_wf : DotDims.WF S1600000x160 S160x128 S1600000x128 [1] [0] [0] [1] [] []
  dot_S1600000x128_S128x64_S1600000x64_1_0_0_1_n_n_wf : DotDims.WF S1600000x128 S128x64 S1600000x64 [1] [0] [0] [1] [] []

variable [Facts₀]

def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf

class Facts : Prop extends Facts₀ where

variable [Facts]
-- ==== Proof.EdgeRow.lean ====
/-
  One edge's update, as a function of that edge's own feature rows and of the shared weights.

  The features of an edge are three rows laid side by side — 64 entries from the source node, 64 from the
  destination node, 32 from the edge itself — giving a row `x` of 160 entries. The update is

      out q = (∑ k < 128, max ((∑ l < 160, x l · W1 l k) + b1 k) 0 · W2 k q) + b2 q        (q < 64),

  an affine layer, the positive part, and a second affine layer, on the extended reals. Nothing here mixes
  two edges: entry (r, q) of the result depends on row r of each feature array only.

  This file states the row laid side by side, reads a three-operand concatenation along the last axis at an
  index as that row, and states the two layers. It knows no program.
-/
import Idealize.ShloMosaic.PureOps.Ideal
import Idealize.ShloMosaic.Lib.ValueIdx
import Idealize.ShloMosaic.Lib.Pipeline.Value

noncomputable section

open scoped BigOperators

namespace EdgeUpdate

open Idealize.ShloMosaic Idealize.ShloMosaic.ValueIdx

/-- Three rows of 64, 64 and 32 entries laid side by side: entry `l` is the first row's for `l < 64`, the second
    row's at `l - 64` for `64 ≤ l < 128`, the third row's at `l - 128` from there on. -/
def sideBySide {α : Type} (s d : Fin 64 → α) (e : Fin 32 → α) (l : Fin 160) : α :=
  if h : l.val < 64 then s ⟨l.val, h⟩
  else if h' : l.val < 128 then d ⟨l.val - 64, by omega⟩
  else e ⟨l.val - 128, by have := l.isLt; omega⟩

/-- A concatenation of arrays of `n` rows with 64, 64 and 32 columns along the column axis, read at row `r` and
    column `l`: the three operands' rows `r` laid side by side, at `l`. The column falls in exactly one operand's
    span, and the row coordinate is untouched. -/
theorem concat3_apply {α : Type} {n : Nat} (x0 x1 : (⟨2, ![n, 64]⟩ : Shape).Idx → α) (x2 : (⟨2, ![n, 32]⟩ : Shape).Idx → α)
    (h : Shape.Concatenates [(⟨2, ![n, 64]⟩ : Shape), ⟨2, ![n, 64]⟩, ⟨2, ![n, 32]⟩] ⟨2, ![n, 160]⟩ 1)
    (r : Fin n) (l : Fin 160) :
    concatenate ⟨2, ![n, 160]⟩ 1 [⟨⟨2, ![n, 64]⟩, x0⟩, ⟨⟨2, ![n, 64]⟩, x1⟩, ⟨⟨2, ![n, 32]⟩, x2⟩] h (ix2 r l)
      = sideBySide (fun a => x0 (ix2 r a)) (fun a => x1 (ix2 r a)) (fun a => x2 (ix2 r a)) l := by
  unfold sideBySide
  by_cases h0 : l.val < 64
  · rw [dif_pos h0]
    exact concatenate_apply_piece 1 [⟨⟨2, ![n, 64]⟩, x0⟩, ⟨⟨2, ![n, 64]⟩, x1⟩, ⟨⟨2, ![n, 32]⟩, x2⟩] h (ix2 r l) 0
      (by show 0 < 3; omega) _ x0 rfl rfl 0 rfl (ix2 r ⟨l.val, h0⟩)
      (fun b hb => by
        match b with
        | ⟨0, _⟩ => rfl
        | ⟨1, _⟩ => exact absurd rfl hb)
      (Nat.zero_add _)
  · rw [dif_neg h0]
    by_cases h1 : l.val < 128
    · rw [dif_pos h1]
      exact concatenate_apply_piece 1 [⟨⟨2, ![n, 64]⟩, x0⟩, ⟨⟨2, ![n, 64]⟩, x1⟩, ⟨⟨2, ![n, 32]⟩, x2⟩] h (ix2 r l) 1
        (by show 1 < 3; omega) _ x1 rfl rfl 64 rfl (ix2 r ⟨l.val - 64, by omega⟩)
        (fun b hb => by
          match b with
          | ⟨0, _⟩ => rfl
          | ⟨1, _⟩ => exact absurd rfl hb)
        (by show 64 + (l.val - 64) = l.val; omega)
    · rw [dif_neg h1]
      exact concatenate_apply_piece 1 [⟨⟨2, ![n, 64]⟩, x0⟩, ⟨⟨2, ![n, 64]⟩, x1⟩, ⟨⟨2, ![n, 32]⟩, x2⟩] h (ix2 r l) 2
        (by show 2 < 3; omega) _ x2 rfl rfl 128 rfl
        (ix2 r ⟨l.val - 128, by have := l.isLt; omega⟩)
        (fun b hb => by
          match b with
          | ⟨0, _⟩ => rfl
          | ⟨1, _⟩ => exact absurd rfl hb)
        (by show 128 + (l.val - 128) = l.val; omega)

/-- The two layers on one row: an affine map to 128 entries, the positive part (the maximum with the float zero),
    an affine map to 64 entries. -/
def twoLayer (x : Fin 160 → EReal) (W1 : Fin 160 → Fin 128 → EReal) (b1 : Fin 128 → EReal)
    (W2 : Fin 128 → Fin 64 → EReal) (b2 : Fin 64 → EReal) (q : Fin 64) : EReal :=
  (∑ k : Fin 128, max ((∑ l : Fin 160, x l * W1 l k) + b1 k) (Ideal.ofBits .f32 0x00000000#32) * W2 k q) + b2 q

/-- The update of edge `r`, entry `q`, from the whole arrays: the two layers on row `r` of the three feature arrays laid
    side by side, with the weight matrices and bias vectors read by coordinates. -/
def edgeOut (src dest : (⟨2, ![1600000, 64]⟩ : Shape).Idx → EReal) (edge : (⟨2, ![1600000, 32]⟩ : Shape).Idx → EReal)
    (W1 : (⟨2, ![160, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (r : Fin 1600000) (q : Fin 64) : EReal :=
  twoLayer (sideBySide (fun a => src (ix2 r a)) (fun a => dest (ix2 r a)) (fun a => edge (ix2 r a)))
    (fun l k => W1 (ix2 l k)) (fun k => b1 (ix1 k)) (fun k c => W2 (ix2 k c)) (fun c => b2 (ix1 c)) q

/-- The result array both programs end with: every edge's update, index by index. -/
def allEdges (src dest : (⟨2, ![1600000, 64]⟩ : Shape).Idx → EReal) (edge : (⟨2, ![1600000, 32]⟩ : Shape).Idx → EReal)
    (W1 : (⟨2, ![160, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![1600000, 64]⟩ : Shape).Idx → EReal :=
  fun i => edgeOut src dest edge W1 b1 W2 b2 (i 0) (i 1)

end EdgeUpdate

end
-- ==== Proof.BlockValue.lean ====
/-
  What the kernel body computes for one block of 5000 edges, entry by entry.

  The body lays the block's three feature tiles side by side (5000 × 160), multiplies by the first weight matrix into
  a zero accumulator, adds the first bias row to every row, takes the maximum with zero, multiplies by the second
  weight matrix into a zero accumulator and adds the second bias row. On the extended reals the changes of float
  format are the identity, so entry (p, q) of the result is the two-layer update of row `p` of the three tiles:
  it reads no other row of the block.
-/
import proofs.«113200_j17669495456023_1_alg».proof.Proof.Gen.KernelIdeal.Skeleton
import proofs.«113200_j17669495456023_1_alg».proof.Proof.EdgeRow
import Idealize.ShloMosaic.PureOps.Ideal.Laws
import Idealize.ShloMosaic.Lib.ValueIdx
import Idealize.ShloMosaic.Lib.Pipeline.Value

noncomputable section

open scoped BigOperators

namespace Cert.KernelIdeal.BlockValue

open Cert.KernelIdeal Cert.KernelIdeal.Gen Idealize.ShloMosaic Idealize.ShloMosaic.ValueIdx EdgeUpdate

/-- A bias row kept as a [1, c] array, cast to its own shape and broadcast over `n` rows, read at (p, k): the row's
    entry `k`, whatever the row `p`. -/
theorem rowBias_apply {α : Type} {n c : Nat} (hc : c ≠ 1) (b : (⟨2, ![1, c]⟩ : Shape).Idx → α)
    (h1 : (⟨2, ![1, c]⟩ : Shape).ShapeCasts ⟨2, ![1, c]⟩) (h2 : (⟨2, ![1, c]⟩ : Shape).Broadcasts ⟨2, ![n, c]⟩)
    (p : Fin n) (k : Fin c) :
    broadcastTo ⟨2, ![n, c]⟩ (shapeCast ⟨2, ![1, c]⟩ b h1) h2 (ix2 p k) = b (ix2 (0 : Fin 1) k) := by
  rw [shapeCast_self]
  exact broadcastTo_apply b h2 (ix2 p k) (ix2 (0 : Fin 1) k) (fun a => match a with
    | ⟨0, _⟩ => by show 0 = if (1 : Nat) = 1 then 0 else _; rw [if_pos rfl]
    | ⟨1, _⟩ => by show k.val = if c = 1 then 0 else k.val; rw [if_neg hc])

/-! ## The two matrix products at an entry -/

theorem first_lhs_0 (i : S5000x128.Idx) (q : dot_S5000x160_S160x128_S5000x128_1_0_0_1_n_n.contr.Idx) :
    (dot_S5000x160_S160x128_S5000x128_1_0_0_1_n_n.lhsIdx i q 0).val = (i 0).val := by
  unfold DotDims.lhsIdx
  rw [dif_neg (show ¬(0 : Fin S5000x160.rank) ∈ dot_S5000x160_S160x128_S5000x128_1_0_0_1_n_n.lhsBatch by decide), dif_pos (show (0 : Fin S5000x160.rank) ∈ dot_S5000x160_S160x128_S5000x128_1_0_0_1_n_n.lhsNonContracting by decide)]
  rfl
theorem first_lhs_1 (i : S5000x128.Idx) (q : dot_S5000x160_S160x128_S5000x128_1_0_0_1_n_n.contr.Idx) :
    (dot_S5000x160_S160x128_S5000x128_1_0_0_1_n_n.lhsIdx i q 1).val = (q ⟨0, by decide⟩).val :=
  dot_S5000x160_S160x128_S5000x128_1_0_0_1_n_n.lhsIdx_val_of_single rfl i q
theorem first_rhs_0 (i : S5000x128.Idx) (q : dot_S5000x160_S160x128_S5000x128_1_0_0_1_n_n.contr.Idx) :
    (dot_S5000x160_S160x128_S5000x128_1_0_0_1_n_n.rhsIdx i q 0).val = (q ⟨0, by decide⟩).val :=
  dot_S5000x160_S160x128_S5000x128_1_0_0_1_n_n.rhsIdx_val_of_single rfl i q
theorem first_rhs_1 (i : S5000x128.Idx) (q : dot_S5000x160_S160x128_S5000x128_1_0_0_1_n_n.contr.Idx) :
    (dot_S5000x160_S160x128_S5000x128_1_0_0_1_n_n.rhsIdx i q 1).val = (i 1).val := by
  unfold DotDims.rhsIdx
  rw [dif_neg (show ¬(1 : Fin S160x128.rank) ∈ dot_S5000x160_S160x128_S5000x128_1_0_0_1_n_n.rhsBatch by decide), dif_pos (show (1 : Fin S160x128.rank) ∈ dot_S5000x160_S160x128_S5000x128_1_0_0_1_n_n.rhsNonContracting by decide)]
  rfl

/-- The product into a zero accumulator, at entry (p, c): the sum over the 160 shared coordinates of the left
    operand's row `p` times the right operand's column `c`. -/
theorem first_apply {φ₁ φ₂ : FTy} (x : FVec Ideal S5000x160 φ₁) (w : FVec Ideal S160x128 φ₂) (p : Fin 5000) (c : Fin 128) :
    FloatOps.matmul dot_S5000x160_S160x128_S5000x128_1_0_0_1_n_n none x w (constant S5000x128 .f32 0x00000000#32) (ix2 p c)
      = ∑ k : Fin 160, x (ix2 p k) * w (ix2 k c) := by
  rw [Ideal.matmul_constant_zero_apply, ← Equiv.sum_comp (ValueIdx.contrEquiv1 dot_S5000x160_S160x128_S5000x128_1_0_0_1_n_n 160 rfl rfl).symm]
  refine Finset.sum_congr rfl fun k _ => ?_
  have hk := ValueIdx.contrEquiv1_symm_val dot_S5000x160_S160x128_S5000x128_1_0_0_1_n_n 160 rfl rfl k
  have el : dot_S5000x160_S160x128_S5000x128_1_0_0_1_n_n.lhsIdx (ix2 p c) ((ValueIdx.contrEquiv1 dot_S5000x160_S160x128_S5000x128_1_0_0_1_n_n 160 rfl rfl).symm k) = ix2 p k := funext fun a => Fin.ext (by
    match a with
    | ⟨0, _⟩ => exact first_lhs_0 _ _
    | ⟨1, _⟩ => exact (first_lhs_1 _ _).trans hk)
  have er : dot_S5000x160_S160x128_S5000x128_1_0_0_1_n_n.rhsIdx (ix2 p c) ((ValueIdx.contrEquiv1 dot_S5000x160_S160x128_S5000x128_1_0_0_1_n_n 160 rfl rfl).symm k) = ix2 k c := funext fun a => Fin.ext (by
    match a with
    | ⟨0, _⟩ => exact (first_rhs_0 _ _).trans hk
    | ⟨1, _⟩ => exact first_rhs_1 _ _)
  rw [el, er]

theorem second_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem second_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem second_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem second_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, at entry (p, c): the sum over the 128 shared coordinates of the left
    operand's row `p` times the right operand's column `c`. -/
theorem second_apply {φ₁ φ₂ : FTy} (x : FVec Ideal S5000x128 φ₁) (w : FVec Ideal S128x64 φ₂) (p : Fin 5000) (c : Fin 64) :
    FloatOps.matmul dot_S5000x128_S128x64_S5000x64_1_0_0_1_n_n none x w (constant S5000x64 .f32 0x00000000#32) (ix2 p c)
      = ∑ k : Fin 128, x (ix2 p k) * w (ix2 k c) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p c) ((ValueIdx.contrEquiv1 dot_S5000x128_S128x64_S5000x64_1_0_0_1_n_n 128 rfl rfl).symm k) = ix2 p k := funext fun a => Fin.ext (by
    match a with
    | ⟨0, _⟩ => exact second_lhs_0 _ _
    | ⟨1, _⟩ => exact (second_lhs_1 _ _).trans hk)
  have er : dot_S5000x128_S128x64_S5000x64_1_0_0_1_n_n.rhsIdx (ix2 p c) ((ValueIdx.contrEquiv1 dot_S5000x128_S128x64_S5000x64_1_0_0_1_n_n 128 rfl rfl).symm k) = ix2 k c := funext fun a => Fin.ext (by
    match a with
    | ⟨0, _⟩ => exact (second_rhs_0 _ _).trans hk
    | ⟨1, _⟩ => exact second_rhs_1 _ _)
  rw [el, er]

/-! ## The payload at an entry -/

/-- Entry (p, q) of the body's stored value is the two-layer update of row `p` of the three feature tiles, with the
    weight tiles and the bias rows as loaded. -/
theorem pay_apply (v0 v1 : Vec Ideal S5000x64 .f32) (v2 : Vec Ideal S5000x32 .f32) (v5 : Vec Ideal S160x128 .bf16)
    (v8 : Vec Ideal S1x128 .f32) (v15 : Vec Ideal S128x64 .bf16) (v18 : Vec Ideal S1x64 .f32) (p : Fin 5000) (q : Fin 64) :
    k0_pay1 (F := Ideal) v0 v1 v2 v5 v8 v15 v18 (ix2 p q)
      = twoLayer (sideBySide (fun a => v0 (ix2 p a)) (fun a => v1 (ix2 p a)) (fun a => v2 (ix2 p a)))
          (fun l k => v5 (ix2 l k)) (fun k => v8 (ix2 (0 : Fin 1) k)) (fun k c => v15 (ix2 k c)) (fun c => v18 (ix2 (0 : Fin 1) c)) q := by
  unfold k0_pay1 twoLayer
  dsimp only
  refine (addf_apply _ _ _).trans ?_
  refine congrArg₂ (· + ·) ?_ (rowBias_apply (by decide) v18 _ _ p q)
  refine (second_apply _ _ p q).trans ?_
  refine Finset.sum_congr rfl fun k _ => ?_
  refine congrArg₂ (· * ·) ?_ (congrFun (shapeCast_self v15 _) (ix2 k q))
  show max (_ + _) _ = _
  refine congrArg₂ max (congrArg₂ (· + ·) ?_ (rowBias_apply (by decide) v8 _ _ p k)) rfl
  refine (first_apply _ _ p k).trans ?_
  refine Finset.sum_congr rfl fun l _ => ?_
  exact congrArg₂ (· * ·) (concat3_apply (n := 5000) v0 v1 v2 Facts₀.concatenates_S5000x64_S5000x64_S5000x32_S5000x160_d1 p l) (congrFun (shapeCast_self v5 _) (ix2 l k))

end Cert.KernelIdeal.BlockValue

end
-- ==== Proof.KernelArray.lean ====
/-
  The kernel's result array after the whole grid has run.

  The grid has 320 points. Point `t` stages rows 5000·t … 5000·t + 4999 of the three feature arrays, the whole of the two
  weight matrices and of the two bias rows, and writes back rows 5000·t … 5000·t + 4999 of the result. The weight
  matrices reach the region through a change of float format, which is the identity on the extended reals, and the
  bias vectors through a reshape to one row. Since entry (p, q) of a block is the update of the block's row `p` alone,
  point `t`'s block is the restriction of ONE array — every edge's update — to its rows; the 320 blocks tile the
  1 600 000 rows, so that array is what the result holds at the end.
-/
import proofs.«113200_j17669495456023_1_alg».proof.Proof.Gen.KernelIdeal.Value
import proofs.«113200_j17669495456023_1_alg».proof.Proof.BlockValue
import proofs.«113200_j17669495456023_1_alg».proof.Proof.EdgeRow
import Idealize.ShloMosaic.Lib.Pipeline.Value
import Idealize.ShloMosaic.Lib.StableHlo.Run
import Idealize.ShloMosaic.Lib.ValueIdx

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx EdgeUpdate
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Which block each window stages at a point -/

/-- Decided once over the 320 points: the feature windows and the result window are at block `t` of the row axis and
    block 0 of the column axis; the weight and bias windows stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 320 := t.isLt

/-- Row `p` of point `t`'s block is row 5000·t + p of the array. -/
def rowOf (t : Fin cfg0.N) (p : Fin 5000) : Fin 1600000 :=
  ⟨t.val * 5000 + p.val, by have := point_lt t; have := p.isLt; omega⟩

theorem at_src (t : Fin cfg0.N) (p : Fin 5000) (a : Fin 64) :
    ((cfg0.win 0).blk t).view.emb (ix2 p a) = ix2 (rowOf t p) a := by
  obtain ⟨e0, e1, -⟩ := block_index t
  funext d; apply Fin.ext
  match d with
  | ⟨0, _⟩ => show win0_0.index t (0 : Fin 2) * 5000 + 1 * p.val = t.val * 5000 + p.val; rw [e0]; omega
  | ⟨1, _⟩ => show win0_0.index t (1 : Fin 2) * 64 + 1 * a.val = a.val; rw [e1]; omega

theorem at_dest (t : Fin cfg0.N) (p : Fin 5000) (a : Fin 64) :
    ((cfg0.win 1).blk t).view.emb (ix2 p a) = ix2 (rowOf t p) a := by
  obtain ⟨-, -, e0, e1, -⟩ := block_index t
  funext d; apply Fin.ext
  match d with
  | ⟨0, _⟩ => show win0_1.index t (0 : Fin 2) * 5000 + 1 * p.val = t.val * 5000 + p.val; rw [e0]; omega
  | ⟨1, _⟩ => show win0_1.index t (1 : Fin 2) * 64 + 1 * a.val = a.val; rw [e1]; omega

theorem at_edge (t : Fin cfg0.N) (p : Fin 5000) (a : Fin 32) :
    ((cfg0.win 2).blk t).view.emb (ix2 p a) = ix2 (rowOf t p) a := by
  obtain ⟨-, -, -, -, e0, e1, -⟩ := block_index t
  funext d; apply Fin.ext
  match d with
  | ⟨0, _⟩ => show win0_2.index t (0 : Fin 2) * 5000 + 1 * p.val = t.val * 5000 + p.val; rw [e0]; omega
  | ⟨1, _⟩ => show win0_2.index t (1 : Fin 2) * 32 + 1 * a.val = a.val; rw [e1]; omega

theorem at_w1 (t : Fin cfg0.N) (l : Fin 160) (k : Fin 128) :
    ((cfg0.win 3).blk t).view.emb (ix2 l k) = ix2 l k := by
  obtain ⟨-, -, -, -, -, -, e0, e1, -⟩ := block_index t
  funext d; apply Fin.ext
  match d with
  | ⟨0, _⟩ => show win0_3.index t (0 : Fin 2) * 160 + 1 * l.val = l.val; rw [e0]; omega
  | ⟨1, _⟩ => show win0_3.index t (1 : Fin 2) * 128 + 1 * k.val = k.val; rw [e1]; omega

theorem at_b1 (t : Fin cfg0.N) (z : Fin 1) (k : Fin 128) :
    ((cfg0.win 4).blk t).view.emb (ix2 z k) = ix2 z k := by
  obtain ⟨-, -, -, -, -, -, -, -, e0, e1, -⟩ := block_index t
  funext d; apply Fin.ext
  match d with
  | ⟨0, _⟩ => show win0_4.index t (0 : Fin 2) * 1 + 1 * z.val = z.val; rw [e0]; omega
  | ⟨1, _⟩ => show win0_4.index t (1 : Fin 2) * 128 + 1 * k.val = k.val; rw [e1]; omega

theorem at_w2 (t : Fin cfg0.N) (k : Fin 128) (q : Fin 64) :
    ((cfg0.win 5).blk t).view.emb (ix2 k q) = ix2 k q := by
  obtain ⟨-, -, -, -, -, -, -, -, -, -, e0, e1, -⟩ := block_index t
  funext d; apply Fin.ext
  match d with
  | ⟨0, _⟩ => show win0_5.index t (0 : Fin 2) * 128 + 1 * k.val = k.val; rw [e0]; omega
  | ⟨1, _⟩ => show win0_5.index t (1 : Fin 2) * 64 + 1 * q.val = q.val; rw [e1]; omega

theorem at_b2 (t : Fin cfg0.N) (z : Fin 1) (q : Fin 64) :
    ((cfg0.win 6).blk t).view.emb (ix2 z q) = ix2 z q := by
  obtain ⟨-, -, -, -, -, -, -, -, -, -, -, -, e0, e1, -⟩ := block_index t
  funext d; apply Fin.ext
  match d with
  | ⟨0, _⟩ => show win0_6.index t (0 : Fin 2) * 1 + 1 * z.val = z.val; rw [e0]; omega
  | ⟨1, _⟩ => show win0_6.index t (1 : Fin 2) * 64 + 1 * q.val = q.val; rw [e1]; omega

theorem at_out (t : Fin cfg0.N) (p : Fin 5000) (q : Fin 64) :
    ((cfg0.win 7).blk t).view.emb (ix2 p q) = ix2 (rowOf t p) q := by
  obtain ⟨-, -, -, -, -, -, -, -, -, -, -, -, -, -, e0, e1⟩ := block_index t
  funext d; apply Fin.ext
  match d with
  | ⟨0, _⟩ => show win0_7.index t (0 : Fin 2) * 5000 + 1 * p.val = t.val * 5000 + p.val; rw [e0]; omega
  | ⟨1, _⟩ => show win0_7.index t (1 : Fin 2) * 64 + 1 * q.val = q.val; rw [e1]; omega

/-! ## The arrays as the region finds them -/

/-- Every edge's update from the arrays at region entry: the features as launched, the weight matrices after their
    change of format, the bias vectors as one-row arrays. -/
def regionOutAt (c : Dev nD) (r : Fin 1600000) (q : Fin 64) : EReal :=
  twoLayer (sideBySide (fun a => V m c main_arg0 (ix2 r a)) (fun a => V m c main_arg1 (ix2 r a)) (fun a => V m c main_arg2 (ix2 r a)))
    (fun l k => V m c main_v0 (ix2 l k)) (fun k => V m c main_v2 (ix2 (0 : Fin 1) k))
    (fun k d => V m c main_v1 (ix2 k d)) (fun d => V m c main_v3 (ix2 (0 : Fin 1) d)) q

def regionOut (c : Dev nD) : S1600000x64.Idx → EReal := fun i => regionOutAt m c (i 0) (i 1)

/-- WHAT POINT `t` WRITES BACK is block `t` of `regionOut`. -/
theorem flushed_eq (c : Dev nD) (t : Fin cfg0.N) :
    (dats m 0 c).flushed 7 t = ((cfg0.win 7).blk t).view.read (Elt Ideal) (regionOut m c) := by
  rw [Value.flushed7]
  unfold out0_7
  rw [View.canon_unit_zero origin]
  simp only [View.ld_unit_zero (S := S5000x64) origin, View.ld_unit_zero (S := S5000x32) origin,
    View.ld_unit_zero (S := S160x128) origin, View.ld_unit_zero (S := S1x128) origin,
    View.ld_unit_zero (S := S128x64) origin, View.ld_unit_zero (S := S1x64) origin]
  funext j
  obtain ⟨p, q, rfl⟩ : ∃ (p : Fin 5000) (q : Fin 64), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
    = regionOut m c (((cfg0.win 7).blk t).view.emb (ix2 p q))
  rw [at_out]
  refine (BlockValue.pay_apply (iblk m c 0 t) (iblk m c 1 t) (iblk m c 2 t) (iblk m c 3 t) (iblk m c 4 t) (iblk m c 5 t) (iblk m c 6 t) p q).trans ?_
  show _ = regionOutAt m c (rowOf t p) q
  unfold regionOutAt
  have r0 : (fun a => iblk m c 0 t (ix2 p a)) = fun a => V m c main_arg0 (ix2 (rowOf t p) a) := funext fun a => by
    show V m c main_arg0 (((cfg0.win 0).blk t).view.emb (ix2 p a)) = _; rw [at_src]
  have r1 : (fun a => iblk m c 1 t (ix2 p a)) = fun a => V m c main_arg1 (ix2 (rowOf t p) a) := funext fun a => by
    show V m c main_arg1 (((cfg0.win 1).blk t).view.emb (ix2 p a)) = _; rw [at_dest]
  have r2 : (fun a => iblk m c 2 t (ix2 p a)) = fun a => V m c main_arg2 (ix2 (rowOf t p) a) := funext fun a => by
    show V m c main_arg2 (((cfg0.win 2).blk t).view.emb (ix2 p a)) = _; rw [at_edge]
  have r3 : (fun l k => iblk m c 3 t (ix2 l k)) = fun l k => V m c main_v0 (ix2 l k) := funext fun l => funext fun k => by
    show V m c main_v0 (((cfg0.win 3).blk t).view.emb (ix2 l k)) = _; rw [at_w1]
  have r4 : (fun k => iblk m c 4 t (ix2 (0 : Fin 1) k)) = fun k => V m c main_v2 (ix2 (0 : Fin 1) k) := funext fun k => by
    show V m c main_v2 (((cfg0.win 4).blk t).view.emb (ix2 (0 : Fin 1) k)) = _; rw [at_b1]
  have r5 : (fun k d => iblk m c 5 t (ix2 k d)) = fun k d => V m c main_v1 (ix2 k d) := funext fun k => funext fun d => by
    show V m c main_v1 (((cfg0.win 5).blk t).view.emb (ix2 k d)) = _; rw [at_w2]
  have r6 : (fun d => iblk m c 6 t (ix2 (0 : Fin 1) d)) = fun d => V m c main_v3 (ix2 (0 : Fin 1) d) := funext fun d => by
    show V m c main_v3 (((cfg0.win 6).blk t).view.emb (ix2 (0 : Fin 1) d)) = _; rw [at_b2]
  rw [r0, r1, r2, r3, r4, r5, r6]

/-! ## The blocks tile the array -/

theorem mem_block (t : Fin cfg0.N) (i : S1600000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v4).slice (win0_7.rect t)).set ↔ _
  rw [View.set_slice_whole, Rect.mem_set_unit]
  exact Iff.rfl

/-- Row `r` lies in the block of point `r / 5000`. -/
theorem tiled (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  let t : Fin cfg0.N := ⟨(i 0).val / 5000, by show (i 0).val / 5000 < 320; omega⟩
  have ht : t.val = (i 0).val / 5000 := rfl
  obtain ⟨-, -, -, -, -, -, -, -, -, -, -, -, -, -, e0, e1⟩ := block_index t
  refine ⟨t, flush0_7 t, ?_⟩
  rw [mem_block]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 64 ≤ (i 1).val ∧ (i 1).val < win0_7.index t (1 : Fin 2) * 64 + 64; rw [e1]; omega

/-- So the result array ends holding `regionOut`. -/
theorem final_region (c : Dev nD) : (dats m 0 c).arrAt 7 cfg0.N = regionOut m c :=
  (dats m 0 c).arrAt_eq_of_cover 7 (regionOut m c) (fun t _ => flushed_eq m c t) tiled

/-! ## The host operations before the region -/

/-- A vector reshaped to one row, read at (0, k): its entry `k`. -/
theorem oneRow_apply {α : Type} {n : Nat} (b : (⟨1, ![n]⟩ : Shape).Idx → α) (h : (⟨1, ![n]⟩ : Shape).ShapeCasts ⟨2, ![1, n]⟩) (k : Fin n) :
    shapeCast ⟨2, ![1, n]⟩ b h (ix2 (0 : Fin 1) k) = b (ix1 k) :=
  shapeCast_apply b h (ix2 (0 : Fin 1) k) (ix1 k) (by
    rw [Shape.rowMajor_val_two, Shape.rowMajor_val_one]; show k.val = 0 * n + k.val; omega)

theorem entry_w1 (c : Dev nD) : (V m c main_v0 : S160x128.Idx → EReal) = m ((c : Thread nD τ).loc main_arg5) := by
  dsimp only [Gen.V, Gen.hostOps0]; after_results; rfl
theorem entry_w2 (c : Dev nD) : (V m c main_v1 : S128x64.Idx → EReal) = m ((c : Thread nD τ).loc main_arg7) := by
  dsimp only [Gen.V, Gen.hostOps0]; after_results; rfl
theorem entry_b1 (c : Dev nD) : (V m c main_v2 : S1x128.Idx → EReal)
    = shapeCast S1x128 (m ((c : Thread nD τ).loc main_arg6) : S128.Idx → EReal) Facts₀.shapeCasts_S128_S1x128 := by
  dsimp only [Gen.V, Gen.hostOps0]; after_results; rfl
theorem entry_b2 (c : Dev nD) : (V m c main_v3 : S1x64.Idx → EReal)
    = shapeCast S1x64 (m ((c : Thread nD τ).loc main_arg8) : S64.Idx → EReal) Facts₀.shapeCasts_S64_S1x64 := by
  dsimp only [Gen.V, Gen.hostOps0]; after_results; rfl

/-- With the host operations read, `regionOut` is every edge's update from the arguments as launched. -/
theorem regionOut_eq (c : Dev nD) :
    regionOut m c = allEdges (m ((c : Thread nD τ).loc main_arg0)) (m ((c : Thread nD τ).loc main_arg1)) (m ((c : Thread nD τ).loc main_arg2))
      (m ((c : Thread nD τ).loc main_arg5)) (m ((c : Thread nD τ).loc main_arg6)) (m ((c : Thread nD τ).loc main_arg7)) (m ((c : Thread nD τ).loc main_arg8)) := by
  funext i
  show regionOutAt m c (i 0) (i 1) = edgeOut _ _ _ _ _ _ _ (i 0) (i 1)
  unfold regionOutAt edgeOut
  rw [V_main_arg0, V_main_arg1, V_main_arg2, entry_w1, entry_w2, entry_b1, entry_b2]
  simp only [oneRow_apply]

/-- The run, with the result array named: every edge's update of the arguments as launched; the arguments unchanged. -/
theorem run : θ_run defs (onTc (τ := τ) (main (F := Ideal))) ⟨m, fun _ => 0, ρ⟩ fun r => ∀ c : Dev nD,
      r.2.mem ((c : Thread nD τ).loc main_v4) = allEdges (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final_region m c).trans (regionOut_eq m c)), (h c).2⟩)
    (Value.run_blocks m ρ)

end Cert.KernelIdeal.ArrayValue

end
-- ==== Proof.RefValue.lean ====
/-
  The reference computes every edge's update.

  Its program concatenates the three whole feature arrays along the column axis, multiplies by the first weight
  matrix, adds the first bias (broadcast over the rows), takes the maximum with zero, multiplies by the second weight
  matrix and adds the second bias. Read at row `r` and column `q`, each stage reads its operands at row `r` only, so
  the last stage is the two-layer update of row `r` of the three arrays laid side by side.
-/
import proofs.«113200_j17669495456023_1_alg».proof.Proof.Gen.ReferenceIdeal.Read
import proofs.«113200_j17669495456023_1_alg».proof.Proof.EdgeRow

noncomputable section

open scoped BigOperators

namespace Cert.ReferenceIdeal.RefValue

open Cert.ReferenceIdeal Cert.ReferenceIdeal.Gen Cert.ReferenceIdeal.Read Idealize.ShloMosaic Idealize.ShloMosaic.ValueIdx EdgeUpdate

/-! ## Where each stage reads its operands, by coordinates -/

theorem left_of_second (r : Fin 1600000) (q : Fin 64) (k : Fin 128) : lidx_main_v6 (ix2 r q) k = ix2 r k :=
  funext fun a => Fin.ext (by match a with | ⟨0, _⟩ => rfl | ⟨1, _⟩ => rfl)
theorem right_of_second (r : Fin 1600000) (q : Fin 64) (k : Fin 128) : ridx_main_v6 (ix2 r q) k = ix2 k q :=
  funext fun a => Fin.ext (by match a with | ⟨0, _⟩ => rfl | ⟨1, _⟩ => rfl)
theorem left_of_first (r : Fin 1600000) (k : Fin 128) (l : Fin 160) : lidx_main_v1 (ix2 r k) l = ix2 r l :=
  funext fun a => Fin.ext (by match a with | ⟨0, _⟩ => rfl | ⟨1, _⟩ => rfl)
theorem right_of_first (r : Fin 1600000) (k : Fin 128) (l : Fin 160) : ridx_main_v1 (ix2 r k) l = ix2 l k :=
  funext fun a => Fin.ext (by match a with | ⟨0, _⟩ => rfl | ⟨1, _⟩ => rfl)
theorem first_bias_at (r : Fin 1600000) (k : Fin 128) : idx_main_v2 (idx_main_v3 (ix2 r k)) = ix1 k :=
  funext fun a => Fin.ext (by match a with | ⟨0, _⟩ => rfl)
theorem second_bias_at (r : Fin 1600000) (q : Fin 64) : idx_main_v7 (idx_main_v8 (ix2 r q)) = ix1 q :=
  funext fun a => Fin.ext (by match a with | ⟨0, _⟩ => rfl)

/-- The concatenated array at (r, l): row `r` of the three feature arrays laid side by side, at `l`. -/
theorem joined_apply (x0 x1 : (⟨S1600000x64, .f32⟩ : BufTy).Contents (Elt Ideal)) (x2 : (⟨S1600000x32, .f32⟩ : BufTy).Contents (Elt Ideal))
    (r : Fin 1600000) (l : Fin 160) :
    val_main_v0 (F := Ideal) x0 x1 x2 (ix2 r l)
      = sideBySide (fun a => x0 (ix2 r a)) (fun a => x1 (ix2 r a)) (fun a => x2 (ix2 r a)) l := by
  unfold val_main_v0
  exact concat3_apply (n := 1600000) x0 x1 x2 Facts₀.concatenates_S1600000x64_S1600000x64_S1600000x32_S1600000x160_d1 r l

/-- The reference's last stage at (r, q) is edge `r`'s update at `q`. -/
theorem last_stage_apply (x0 x1 : (⟨S1600000x64, .f32⟩ : BufTy).Contents (Elt Ideal)) (x2 : (⟨S1600000x32, .f32⟩ : BufTy).Contents (Elt Ideal))
    (x5 : (⟨S160x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal))
    (r : Fin 1600000) (q : Fin 64) :
    val_main_v9 (F := Ideal) x0 x1 x2 x5 x6 x7 x8 (ix2 r q) = edgeOut x0 x1 x2 x5 x6 x7 x8 r q := by
  rw [val_main_v9_apply, val_main_v6_apply, val_main_v8_apply, val_main_v7_apply, second_bias_at]
  simp only [left_of_second, right_of_second, val_main_v5_apply, val_main_v4_apply, val_main_v1_apply, val_main_v3_apply,
    val_main_v2_apply, val_main_call0_v0_apply, val_main_call0_cst_apply, left_of_first, right_of_first, first_bias_at,
    joined_apply]
  rfl

/-- So the reference's result array is every edge's update. -/
theorem last_stage_eq (x0 x1 : (⟨S1600000x64, .f32⟩ : BufTy).Contents (Elt Ideal)) (x2 : (⟨S1600000x32, .f32⟩ : BufTy).Contents (Elt Ideal))
    (x5 : (⟨S160x128, .f32⟩ : BufTy).Contents (Elt Ideal)) (x6 : (⟨S128, .f32⟩ : BufTy).Contents (Elt Ideal))
    (x7 : (⟨S128x64, .f32⟩ : BufTy).Contents (Elt Ideal)) (x8 : (⟨S64, .f32⟩ : BufTy).Contents (Elt Ideal)) :
    val_main_v9 (F := Ideal) x0 x1 x2 x5 x6 x7 x8 = allEdges x0 x1 x2 x5 x6 x7 x8 := by
  funext i
  obtain ⟨r, q, rfl⟩ : ∃ (r : Fin 1600000) (q : Fin 64), i = ix2 r q := ⟨i 0, i 1, eq_ix2 i⟩
  exact last_stage_apply x0 x1 x2 x5 x6 x7 x8 r q

end Cert.ReferenceIdeal.RefValue

end
-- ==== Proof.lean ====
/-
  The edge update of a message-passing layer: for each of 1 600 000 edges, the source node's 64 features, the
  destination node's 64 features and the edge's own 32 features are laid side by side into a row `x` of 160 entries,
  and the result row is

      out q = (∑ k < 128, max ((∑ l < 160, x l · W1 l k) + b1 k) 0 · W2 k q) + b2 q        (q < 64).

  The kernel walks the edges in 320 blocks of 5000 rows; in each block it concatenates the three feature tiles,
  multiplies by W1 into a zero accumulator, adds b1 to every row, takes the maximum with zero, multiplies by W2 into a
  zero accumulator and adds b2. The reference does the same operations once on the whole arrays. On the extended reals
  a change of float format is the identity, a matrix product into a zero accumulator and the host's general dot
  product are the same finite sum, and the concatenation reads, at column `l`, the operand whose span holds `l`. No
  entry of the result mixes two edges, so the block at point `t` is the restriction of the whole-array result to rows
  5000·t … 5000·t + 4999, and the 320 blocks tile the rows. Both programs therefore end with the same array,
  `EdgeUpdate.allEdges` of the arguments; no law of arithmetic beyond reading the two sides at an index is needed, so
  the finiteness of the inputs is not used.

  Modules: EdgeRow (the row laid side by side, the two layers, a concatenation at an index); BlockValue (the body's
  stored value at an entry); KernelArray (blocks to the whole array, the host operations before the region, the
  kernel's run); RefValue (the reference's last stage at an entry). The graph features `u` and the edge-to-graph
  map `batch` are arguments neither program reads.
-/
import proofs.«113200_j17669495456023_1_alg».proof.Defs
import proofs.«113200_j17669495456023_1_alg».proof.Proof.Gen.Kernel
import proofs.«113200_j17669495456023_1_alg».proof.Proof.Gen.Kernel.Skeleton
import proofs.«113200_j17669495456023_1_alg».proof.Proof.Gen.Kernel.Launch
import proofs.«113200_j17669495456023_1_alg».proof.Proof.Gen.Kernel.Points
import proofs.«113200_j17669495456023_1_alg».proof.Proof.Gen.Kernel.Frame
import proofs.«113200_j17669495456023_1_alg».proof.Proof.Gen.KernelIdeal
import proofs.«113200_j17669495456023_1_alg».proof.Proof.Gen.KernelIdeal.Skeleton
import proofs.«113200_j17669495456023_1_alg».proof.Proof.Gen.KernelIdeal.Launch
import proofs.«113200_j17669495456023_1_alg».proof.Proof.Gen.KernelIdeal.Points
import proofs.«113200_j17669495456023_1_alg».proof.Proof.Gen.KernelIdeal.Frame
import proofs.«113200_j17669495456023_1_alg».proof.Proof.Gen.ReferenceIdeal
import proofs.«113200_j17669495456023_1_alg».proof.Proof.Gen.Pre_finite_inputs
import proofs.«113200_j17669495456023_1_alg».proof.Proof.Gen.KernelIdeal.Value
import proofs.«113200_j17669495456023_1_alg».proof.Proof.Gen.ReferenceIdeal.Run
import proofs.«113200_j17669495456023_1_alg».proof.Proof.Gen.ReferenceIdeal.Read
import proofs.«113200_j17669495456023_1_alg».proof.Proof.EdgeRow
import proofs.«113200_j17669495456023_1_alg».proof.Proof.BlockValue
import proofs.«113200_j17669495456023_1_alg».proof.Proof.KernelArray
import proofs.«113200_j17669495456023_1_alg».proof.Proof.RefValue
import Idealize.ShloMosaic.Adequacy
import Idealize.ShloMosaic.Init

noncomputable section

namespace Cert.Proof

open Idealize.ShloMosaic Idealize.SL.Sem Cert.Kernel

/-- The kernel at the word level runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the arguments both programs end with every edge's update of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq _ _ _ _ _ _ _).trans ?_
  rw [Cert.ReferenceIdeal.RefValue.last_stage_eq]
  obtain ⟨h0, h1, h2, -, -, h5, h6, h7, h8⟩ := hagree c
  rw [h0, h1, h2, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
